-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x8192 : Shape := ⟨2, ![3, 8192]⟩
abbrev S_ : Shape := ⟨0, ![]⟩

class Facts : Prop where
  bcast_S_S3x8192 : S_.BroadcastsInDim S3x8192 (![] : Fin 0 → Fin S3x8192.rank)
  reducesTo_S3x8192_S_d0_1 : S3x8192.ReducesTo [0, 1] S_
  h_S_ : 0 < S_.numel

variable [Facts]

def fn {F : FTy → Type} [FloatOps F] (main_arg0 : FVec F S3x8192 .f32) (main_arg1 : FVec F S3x8192 .f32) : IVec S_ 1 :=
  let main_v0 : FVec F S3x8192 .f32 := Host.absf main_arg0
  let main_cst : FVec F S_ .f32 := constant S_ .f32 0x7F800000#32
  let main_v1 : FVec F S3x8192 .f32 := broadcastInDim S3x8192 ![] bcast_S_S3x8192 main_cst
  let main_v2 : IVec S3x8192 1 := cmpf .olt main_v0 main_v1
  let main_c : IVec S_ 1 := constantI S_ 1 1#1
  let main_v3 : IVec S_ 1 := (fun x v => Host.reduce IntOp.andi x v reducesTo_S3x8192_S_d0_1 h_S_) main_v2 main_c
  let main_v4 : FVec F S3x8192 .f32 := Host.absf main_arg1
  let main_cst_0 : FVec F S_ .f32 := constant S_ .f32 0x7F800000#32
  let main_v5 : FVec F S3x8192 .f32 := broadcastInDim S3x8192 ![] bcast_S_S3x8192 main_cst_0
  let main_v6 : IVec S3x8192 1 := cmpf .olt main_v4 main_v5
  let main_c_1 : IVec S_ 1 := constantI S_ 1 1#1
  let main_v7 : IVec S_ 1 := (fun x v => Host.reduce IntOp.andi x v reducesTo_S3x8192_S_d0_1 h_S_) main_v6 main_c_1
  let main_v8 : IVec S_ 1 := andi main_v3 main_v7
  main_v8
-- ==== Kernel.lean ====
abbrev S3x8192 : Shape := ⟨2, ![3, 8192]⟩
abbrev S3x256 : Shape := ⟨2, ![3, 256]⟩
abbrev S256 : Shape := ⟨1, ![256]⟩
abbrev S1x256 : Shape := ⟨2, ![1, 256]⟩
abbrev S8192 : Shape := ⟨1, ![8192]⟩
abbrev S1x8192 : Shape := ⟨2, ![1, 8192]⟩
abbrev S256x8192 : Shape := ⟨2, ![256, 8192]⟩
abbrev S256x1 : Shape := ⟨2, ![256, 1]⟩
abbrev S_ : Shape := ⟨0, ![]⟩

abbrev nBuf : Space → Nat
  | .hbm => 15
  | .vmem => 5
  | .smem => 0
  | _ => 0

abbrev bufTy : (tb : Table) → Fin (tcTables nBuf tb) → BufTy
  | .hbm, ⟨0, _⟩ => ⟨S3x8192, .f32⟩
  | .hbm, ⟨1, _⟩ => ⟨S3x8192, .f32⟩
  | .hbm, ⟨2, _⟩ => ⟨S3x8192, .f32⟩
  | .hbm, ⟨3, _⟩ => ⟨S3x8192, .f32⟩
  | .hbm, ⟨4, _⟩ => ⟨S_, .f32⟩
  | .hbm, ⟨5, _⟩ => ⟨S3x8192, .f32⟩
  | .hbm, ⟨6, _⟩ => ⟨S3x8192, .f32⟩
  | .hbm, ⟨7, _⟩ => ⟨S3x8192, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S3x256, .f32⟩
  | .local _ .vmem, ⟨1, _⟩ => ⟨S3x256, .f32⟩
  | .local _ .vmem, ⟨2, _⟩ => ⟨S3x8192, .f32⟩
  | .local _ .vmem, ⟨3, _⟩ => ⟨S3x256, .f32⟩
  | .local _ .vmem, ⟨4, _⟩ => ⟨S3x256, .f32⟩
  | _, _ => ⟨S3x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S3x256_S3x256_0_0 : ∀ a, (![0, 0] : Fin 2 → Nat) a + S3x256.size a ≤ S3x256.size a
  h_S3x256 : 0 < S3x256.numel
  inb_S3x8192_S3x8192_0_0 : ∀ a, (![0, 0] : Fin 2 → Nat) a + S3x8192.size a ≤ S3x8192.size a
  h_S3x8192 : 0 < S3x8192.numel
  reduces_S3x256_S256 : S3x256.Reduces [0] S256
  shapeCasts_S256_S1x256 : S256.ShapeCasts S1x256
  reduces_S3x8192_S8192 : S3x8192.Reduces [0] S8192
  shapeCasts_S8192_S1x8192 : S8192.ShapeCasts S1x8192
  transposes_S1x256_p1_0_S256x1 : S1x256.Transposes [1, 0] S256x1
  broadcasts_S256x1_S256x8192 : S256x1.Broadcasts S256x8192
  broadcasts_S1x8192_S256x8192 : S1x8192.Broadcasts S256x8192
  reduces_S256x8192_S256 : S256x8192.Reduces [1] S256
  shapeCasts_S256_S256x1 : S256.ShapeCasts S256x1
  bcast_S_S3x8192 : S_.BroadcastsInDim S3x8192 (![] : Fin 0 → Fin S3x8192.rank)
  reducesTo_S3x8192_S8192_d0 : S3x8192.ReducesTo [0] S8192
  h_S_ : 0 < S_.numel
  reducesTo_S8192_S_d0 : S8192.ReducesTo [0] S_
  dot_S3x256_S3x8192_S256x8192_0_0_1_1_n_n_wf : DotDims.WF S3x256 S3x8192 S256x8192 [0] [0] [1] [1] [] []
  dot_S3x8192_S256x8192_S3x256_1_1_0_0_n_n_wf : DotDims.WF S3x8192 S256x8192 S3x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x256.size a ≤ S3x8192.size a
  hwx0_0 : ∀ i : grid0.Coords, EltTy.bits .f32 = 32 ∨ (Rect.block (s := S3x8192) S3x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x8192.size a ≤ S3x8192.size a
  hwx0_1 : ∀ i : grid0.Coords, EltTy.bits .f32 = 32 ∨ (Rect.block (s := S3x8192) S3x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x256.size a ≤ S3x8192.size a
  hwx0_2 : ∀ i : grid0.Coords, EltTy.bits .f32 = 32 ∨ (Rect.block (s := S3x8192) S3x256.size (cc0_transform_2 i) (hinb0_2 i)).WholeWords (EltTy.packing .f32)

variable [Facts₀]

def dot_S3x256_S3x8192_S256x8192_0_0_1_1_n_n : DotDims S3x256 S3x8192 S256x8192 where
  lhsContracting := [0]
  rhsContracting := [0]
  lhsNonContracting := [1]
  rhsNonContracting := [1]
  lhsBatch := []
  rhsBatch := []
  wf := dot_S3x256_S3x8192_S256x8192_0_0_1_1_n_n_wf
def dot_S3x8192_S256x8192_S3x256_1_1_0_0_n_n : DotDims S3x8192 S256x8192 S3x256 where
  lhsContracting := [1]
  rhsContracting := [1]
  lhsNonContracting := [0]
  rhsNonContracting := [0]
  lhsBatch := []
  rhsBatch := []
  wf := dot_S3x8192_S256x8192_S3x256_1_1_0_0_n_n_wf

abbrev win0_0 : Pipeline.Window sig grid0 :=
  Pipeline.Window.ofSpec (Memref.whole main_arg0) S3x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S3x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S3x8192 : Shape := ⟨2, ![3, 8192]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 55
  | .vmem => 0
  | .smem => 0
  | _ => 0

abbrev bufTy : (tb : Table) → Fin (tcTables nBuf tb) → BufTy
  | .hbm, ⟨0, _⟩ => ⟨S3x8192, .f32⟩
  | .hbm, ⟨1, _⟩ => ⟨S3x8192, .f32⟩
  | .hbm, ⟨2, _⟩ => ⟨S3x8192, .f32⟩
  | .hbm, ⟨3, _⟩ => ⟨S_, .f32⟩
  | .hbm, ⟨4, _⟩ => ⟨S8192, .f32⟩
  | .hbm, ⟨5, _⟩ => ⟨S3x8192, .f32⟩
  | .hbm, ⟨6, _⟩ => ⟨S_, .f32⟩
  | .hbm, ⟨7, _⟩ => ⟨S8192, .f32⟩
  | .hbm, ⟨8, _⟩ => ⟨S8192x8192, .f32⟩
  | .hbm, ⟨9, _⟩ => ⟨S8192x1, .f32⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S1x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S8192x1, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x8192, .f32⟩
  | .hbm, ⟨41, _⟩ => ⟨S8192x8192, .f32⟩
  | .hbm, ⟨42, _⟩ => ⟨S3x8192, .f32⟩
  | .hbm, ⟨43, _⟩ => ⟨S3x8192, .f32⟩
  | .hbm, ⟨44, _⟩ => ⟨S_, .f32⟩
  | .hbm, ⟨45, _⟩ => ⟨S3x8192, .f32⟩
  | .hbm, ⟨46, _⟩ => ⟨S3x8192, .f32⟩
  | .hbm, ⟨47, _⟩ => ⟨S3x8192, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S3x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_9 : Ref sig .tc := ⟨.hbm, 48, rfl⟩
abbrev main_v34 : Ref sig .tc := ⟨.hbm, 49, rfl⟩
abbrev main_v35 : Ref sig .tc := ⟨.hbm, 50, rfl⟩
abbrev main_cst_10 : Ref sig .tc := ⟨.hbm, 51, rfl⟩
abbrev main_v36 : Ref sig .tc := ⟨.hbm, 52, rfl⟩
abbrev main_cst_11 : Ref sig .tc := ⟨.hbm, 53, rfl⟩
abbrev main_v37 : Ref sig .tc := ⟨.hbm, 54, rfl⟩

abbrev nD : Nat := 1
abbrev τ : Topo := Topo.v7x

variable {F : FTy → Type} [FloatOps F]

class Facts₀ : Prop where
  reducesTo_S3x8192_S8192_d0 : S3x8192.ReducesTo [0] S8192
  h_S_ : 0 < S_.numel
  bcast_S8192_S8192x1_0 : S8192.BroadcastsInDim S8192x1 (![0] : Fin 1 → Fin S8192x1.rank)
  bcast_S_S8192x8192 : S_.BroadcastsInDim S8192x8192 (![] : Fin 0 → Fin S8192x8192.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  bcast_S_S8192 : S_.BroadcastsInDim S8192 (![] : Fin 0 → Fin S8192.rank)
  bcast_S_S3x8192 : S_.BroadcastsInDim S3x8192 (![] : Fin 0 → Fin S3x8192.rank)
  reducesTo_S8192_S_d0 : S8192.ReducesTo [0] S_
  dot_S3x8192_S3x8192_S8192x8192_0_0_1_1_n_n_wf : DotDims.WF S3x8192 S3x8192 S8192x8192 [0] [0] [1] [1] [] []
  dot_S3x8192_S8192x8192_S3x8192_1_1_0_0_n_n_wf : DotDims.WF S3x8192 S8192x8192 S3x8192 [1] [1] [0] [0] [] []

variable [Facts₀]

def dot_S3x8192_S3x8192_S8192x8192_0_0_1_1_n_n : DotDims S3x8192 S3x8192 S8192x8192 where
  lhsContracting := [0]
  rhsContracting := [0]
  lhsNonContracting := [1]
  rhsNonContracting := [1]
  lhsBatch := []
  rhsBatch := []
  wf := dot_S3x8192_S3x8192_S8192x8192_0_0_1_1_n_n_wf
def dot_S3x8192_S8192x8192_S3x8192_1_1_0_0_n_n : DotDims S3x8192 S8192x8192 S3x8192 where
  lhsContracting := [1]
  rhsContracting := [1]
  lhsNonContracting := [0]
  rhsNonContracting := [0]
  lhsBatch := []
  rhsBatch := []
  wf := dot_S3x8192_S8192x8192_S3x8192_1_1_0_0_n_n_wf

class Facts : Prop extends Facts₀ where

variable [Facts]
-- ==== Proof.Spec.lean ====
/-
  Soft nearest neighbour of a query point among M reference points of ℝ³, over the extended reals.

  For a query q and reference points Y m (m < M):
    squared distance   |q|² + |Y m|² − 2·⟨q, Y m⟩, written with one of two groupings of the three terms;
    score              s m = 2 · (1 / max (distance², ε));
    weights            w m = exp (s m − max_m s) / Σ_m' exp (s m' − max_m s)   (a softmax over the reference points);
    result             coordinate d of Σ_m w m · Y m, written Y m d · w m under the sum.
  The constants 2, 1, ε and −∞ are the extended reals their f32 words denote; none of them is ever evaluated.
  The two groupings of the squared distance agree as soon as the two squared norms are real numbers
  (`regroup`), which is the case when every coordinate is real (`sqn_real`).
-/
import Idealize.ShloMosaic.PureOps.Ideal.Laws
import Idealize.ShloMosaic.Lib.ValueIdx

noncomputable section

open scoped BigOperators

namespace Cert.SoftNearest

open Idealize.ShloMosaic Idealize.ShloMosaic.ValueIdx

/-- The constants, as the extended reals their f32 words denote. -/
def two : EReal := Ideal.ofBits .f32 0x40000000#32
def one : EReal := Ideal.ofBits .f32 0x3F800000#32
def floorEps : EReal := Ideal.ofBits .f32 0x3727C5AC#32
def negInf : EReal := Ideal.ofBits .f32 0xFF800000#32

/-- Squared norm of a point. -/
def sqn (q : Fin 3 → EReal) : EReal := ∑ d : Fin 3, q d * q d
/-- Inner product of two points. -/
def inner (q p : Fin 3 → EReal) : EReal := ∑ d : Fin 3, q d * p d

/-- Squared distance grouped as (|q|² + |p|²) − 2⟨q,p⟩. -/
def dist2 (q p : Fin 3 → EReal) : EReal := (sqn q + sqn p) - two * inner q p
/-- Squared distance grouped as (|q|² − 2⟨q,p⟩) + |p|². -/
def dist2' (q p : Fin 3 → EReal) : EReal := (sqn q - two * inner q p) + sqn p

/-- The score of a squared distance: twice the reciprocal of the distance floored at ε. -/
def score (t : EReal) : EReal := two * Ideal.div one (max t floorEps)

variable {M : Nat}

/-- The largest score, from −∞. -/
def top (s : Fin M → EReal) : EReal := (Finset.univ : Finset (Fin M)).fold max negInf s

/-- The softmax-weighted sum of `v` under the scores `s`. -/
def softAgg (s v : Fin M → EReal) : EReal :=
  ∑ m : Fin M, v m * Ideal.div (Ideal.exp (s m - top s)) (∑ m' : Fin M, Ideal.exp (s m' - top s))

/-- Coordinate `d` of the soft nearest neighbour of `q` among the points `Y`, first grouping. -/
def near (q : Fin 3 → EReal) (Y : Fin M → Fin 3 → EReal) (d : Fin 3) : EReal :=
  softAgg (fun m => score (dist2 q (Y m))) (fun m => Y m d)
/-- The same with the second grouping of the squared distance. -/
def near' (q : Fin 3 → EReal) (Y : Fin M → Fin 3 → EReal) (d : Fin 3) : EReal :=
  softAgg (fun m => score (dist2' q (Y m))) (fun m => Y m d)

/-- With real coordinates the squared norm is a real number. -/
theorem sqn_real (q : Fin 3 → EReal) (hq : ∀ d, ∃ r : ℝ, q d = (r : EReal)) : ∃ r : ℝ, sqn q = (r : EReal) := by
  obtain ⟨r0, h0⟩ := hq 0
  obtain ⟨r1, h1⟩ := hq 1
  obtain ⟨r2, h2⟩ := hq 2
  refine ⟨r0 * r0 + r1 * r1 + r2 * r2, ?_⟩
  unfold sqn
  rw [Fin.sum_univ_three, h0, h1, h2]
  simp only [EReal.coe_add, EReal.coe_mul]

/-- For real a, b and any extended real t: (a + b) − t = (a − t) + b. -/
theorem regroup (a b : ℝ) (t : EReal) : ((a : EReal) - t) + (b : EReal) = ((a : EReal) + (b : EReal)) - t := by
  induction t using EReal.rec with
  | bot => simp [sub_eq_add_neg]
  | top => simp [sub_eq_add_neg]
  | coe r =>
    rw [← EReal.coe_sub, ← EReal.coe_add, ← EReal.coe_add, ← EReal.coe_sub]
    exact congrArg _ (by ring)

/-- The two groupings of the squared distance agree on points with real coordinates. -/
theorem dist2'_eq (q p : Fin 3 → EReal) (hq : ∀ d, ∃ r : ℝ, q d = (r : EReal)) (hp : ∀ d, ∃ r : ℝ, p d = (r : EReal)) :
    dist2' q p = dist2 q p := by
  obtain ⟨a, ha⟩ := sqn_real q hq
  obtain ⟨b, hb⟩ := sqn_real p hp
  unfold dist2' dist2
  rw [ha, hb]
  exact regroup a b _

/-- So do the two soft nearest neighbours. -/
theorem near'_eq (q : Fin 3 → EReal) (Y : Fin M → Fin 3 → EReal) (d : Fin 3)
    (hq : ∀ d, ∃ r : ℝ, q d = (r : EReal)) (hY : ∀ m d, ∃ r : ℝ, Y m d = (r : EReal)) :
    near' q Y d = near q Y d := by
  unfold near' near
  exact congrArg (fun s => softAgg s (fun m => Y m d)) (funext fun m => congrArg score (dist2'_eq q (Y m) hq (hY m)))

/-! ## The whole arrays -/

/-- The soft nearest neighbours of the columns of `x` among the columns of `y`, as one [3, N] array. -/
def nearAll {N : Nat} (x : (⟨2, ![3, N]⟩ : Shape).Idx → EReal) (y : (⟨2, ![3, M]⟩ : Shape).Idx → EReal) :
    (⟨2, ![3, N]⟩ : Shape).Idx → EReal :=
  fun i => near (fun d => x (ix2 d (i 1))) (fun m d => y (ix2 d m)) (i 0)

end Cert.SoftNearest

end
-- ==== Proof.FiniteInputs.lean ====
/-
  From the printed finiteness predicate to "every entry of both inputs is a real number".

  The predicate compares |x| = max x (−x) with +∞ at every entry of each input (a strict "less than" on the
  linear order of the extended reals), takes the conjunction of all the comparisons of one input, and then
  the conjunction of the two results. If the whole is true, every single comparison is true; and an extended
  real x with max x (−x) < +∞ is neither +∞ (then max x (−x) = +∞) nor −∞ (then −x = +∞), so it is a real.
-/
import proofs.«164689_j1563368096435_1_alg».proof.Pre_finite_inputs
import Idealize.ShloMosaic.PureOps.Ideal
import Idealize.ShloMosaic.Lib.ReduceAll
import Idealize.ShloMosaic.Lib.ValueIdx

namespace Cert.SoftNearest

open Idealize.ShloMosaic

/-- The f32 word 0x7F800000 (sign 0, exponent all ones, fraction 0) denotes +∞. -/
theorem ofBits_posInf_f32 : Ideal.ofBits .f32 0x7F800000#32 = ⊤ := by
  simp [Ideal.ofBits, Ideal.ieee]

/-- A one-bit word made from a Boolean is 1 only when the Boolean is true. -/
theorem eq_true_of_ofBool_eq_one {b : Bool} (h : BitVec.ofBool b = 1#1) : b = true := by
  cases b
  · exact absurd h (by decide)
  · rfl

/-- An extended real whose absolute value max x (−x) lies strictly below +∞ is a real number:
    at x = −∞ the second argument of the maximum is +∞, at x = +∞ the first is. -/
theorem real_of_abs_lt_top (x : EReal) (h : max x (-x) < ⊤) : ∃ r : ℝ, x = (r : EReal) := by
  induction x using EReal.rec with
  | bot => exact absurd h (by simp)
  | top => exact absurd h (by simp)
  | coe r => exact ⟨r, rfl⟩

/-- One entry: if the comparison |x| < +∞ (the right-hand side given by its f32 word) came out true, x is real. -/
theorem real_of_cmp_abs_inf (x : Ideal .f32)
    (h : FloatOps.cmpf .olt (FloatOps.hostAbsf x) (FloatOps.ofBits (F := Ideal) .f32 0x7F800000#32) = 1#1) :
    ∃ r : ℝ, (x : EReal) = (r : EReal) := by
  have h' : BitVec.ofBool (decide (max (x : EReal) (-(x : EReal)) < Ideal.ofBits .f32 0x7F800000#32)) = 1#1 := h
  rw [ofBits_posInf_f32] at h'
  exact real_of_abs_lt_top x (of_decide_eq_true (eq_true_of_ofBool_eq_one h'))

/-- The result of a reduction over all axes has a single index. -/
instance subsingleton_scalarIdx : Subsingleton Cert.Pre_finite_inputs.S_.Idx :=
  ⟨fun a b => funext fun d => d.elim0⟩

/-- If the printed finiteness predicate is true of two [3, 8192] arrays, every entry of both is a real number. -/
theorem real_of_pre [Cert.Pre_finite_inputs.Facts] (x0 x1 : FVec Ideal Cert.Pre_finite_inputs.S3x8192 .f32)
    (h : Cert.Pre_finite_inputs.fn (F := Ideal) x0 x1 = fun _ => 1#1) :
    (∀ i, ∃ r : ℝ, x0 i = (r : EReal)) ∧ (∀ i, ∃ r : ℝ, x1 i = (r : EReal)) := by
  have h0 := congrFun h ValueIdx.ix0
  dsimp only [Cert.Pre_finite_inputs.fn] at h0
  -- the outer conjunction of the two "all entries" results
  obtain ⟨ha, hb⟩ := IntOp.andi_eq_one.1 h0
  -- each "all entries" result being true makes every single comparison true
  exact ⟨fun i => real_of_cmp_abs_inf (x0 i) (Host.reduce_andi_all _ _ _ _ _ ha i),
         fun i => real_of_cmp_abs_inf (x1 i) (Host.reduce_andi_all _ _ _ _ _ hb i)⟩

end Cert.SoftNearest
-- ==== Proof.LibRowReduce.lean ====
/-
  Row reductions of a rank-2 vector along its second axis, read at a row: the general facts a row-wise
  softmax, log-softmax or normalisation needs once both programs are down to one row.

  For a vector `x` of shape [R, D] and a row `r`:
  * the kernel's lane reduction with a maximum body is the fold of `max`, from the accumulator's value, over the
    row's entries `x (r, k)`, `k : Fin D` (`multiReduction_maximumf_row`);
  * the kernel's lane reduction with an add body is the sum of the row's entries (`multiReduction_add_row`);
  * the host's reduce with a maximum body is the same fold from the initial value (`hostReduce_maximumf_row`),
    and the host's sum is the initial value plus the sum of the row's entries (`hostReduceAdd_row`);
  * the f32 pattern of minus infinity is the bottom extended real (`ofBits_negInf_f32`), which `max` absorbs
    (`max_negInf_left`), so a maximum taken from minus infinity may be taken from it twice
    (`max_negInf_fold`).
  All at the ideal instance, where floats are extended reals.
-/
import Idealize.ShloMosaic.PureOps.Ideal.Laws
import Idealize.ShloMosaic.Lib.ValueIdx

noncomputable section

open scoped BigOperators

namespace Idealize.ShloMosaic.RowReduce

open Idealize.ShloMosaic Idealize.ShloMosaic.ValueIdx

variable {φ : FTy} {R D : Nat}

/-- Row `r` with column `k` put back on the reduced axis is the index (r, k). -/
theorem lift_row (h : (⟨2, ![R, D]⟩ : Shape).Reduces [1] (⟨1, ![R]⟩ : Shape)) (r : Fin R)
    (k : Fin ((⟨2, ![R, D]⟩ : Shape).size 1)) : h.lift (ix1 r) k = ix2 r (⟨k.val, k.isLt⟩ : Fin D) := by
  funext c; apply Fin.ext
  fin_cases c <;> rfl

/-- A lane reduction with a maximum body over the columns, at row `r`: the fold of `max` from the accumulator's
    value over that row's entries. -/
theorem multiReduction_maximumf_row (x : FVec Ideal ⟨2, ![R, D]⟩ φ) (acc : BitVec φ.bits)
    (h : (⟨2, ![R, D]⟩ : Shape).Reduces [1] (⟨1, ![R]⟩ : Shape)) (hφ : FKind.Formats φ)
    (hacc : acc = FKind.maximumf.neutral φ hφ) (r : Fin R) :
    multiReduction .maximumf [1] ⟨1, ![R]⟩ x acc h hφ hacc (ix1 r)
      = (Finset.univ : Finset (Fin D)).fold max (Ideal.ofBits φ acc) (fun k => x (ix2 r k)) := by
  rw [Ideal.multiReduction_maximumf_single]
  have hf : (x ∘ h.lift (ix1 r)) = fun k : Fin D => x (ix2 r k) := funext fun k => congrArg x (lift_row h r k)
  exact congrArg (fun f => Finset.fold max (Ideal.ofBits φ acc) f (Finset.univ : Finset (Fin D))) hf

/-- A lane reduction with an add body over the columns, at row `r`: the sum of that row's entries. -/
theorem multiReduction_add_row (x : FVec Ideal ⟨2, ![R, D]⟩ φ) (acc : BitVec φ.bits)
    (h : (⟨2, ![R, D]⟩ : Shape).Reduces [1] (⟨1, ![R]⟩ : Shape)) (hφ : FKind.Formats φ)
    (hacc : acc = FKind.add.neutral φ hφ) (r : Fin R) :
    multiReduction .add [1] ⟨1, ![R]⟩ x acc h hφ hacc (ix1 r) = ∑ k : Fin D, x (ix2 r k) := by
  rw [Ideal.multiReduction_add_single]
  exact Finset.sum_congr rfl fun k _ => congrArg x (lift_row h r k)

/-- The host's reduce with a maximum body over the columns, at row `r`: the fold of `max` from the initial
    value over that row's entries. -/
theorem hostReduce_maximumf_row {u : Shape} (x : FVec Ideal ⟨2, ![R, D]⟩ φ) (init : u.Idx → Ideal φ)
    (h' : (⟨2, ![R, D]⟩ : Shape).ReducesTo [1] (⟨1, ![R]⟩ : Shape))
    (h : (⟨2, ![R, D]⟩ : Shape).Reduces [1] (⟨1, ![R]⟩ : Shape)) (hu : 0 < u.numel) (r : Fin R) :
    Host.reduce FloatOps.maximumf x init h' hu (ix1 r)
      = (Finset.univ : Finset (Fin D)).fold max (init (Shape.Idx.first hu)) (fun k => x (ix2 r k)) := by
  rw [Host.reduce_eq_fold_single FloatOps.maximumf x init h' h hu]
  have hf : (x ∘ h.lift (ix1 r)) = fun k : Fin D => x (ix2 r k) := funext fun k => congrArg x (lift_row h r k)
  exact congrArg (fun f => Finset.fold max (init (Shape.Idx.first hu)) f (Finset.univ : Finset (Fin D))) hf

/-- The host's sum over the columns, at row `r`: the initial value plus the sum of that row's entries. -/
theorem hostReduceAdd_row (x : (⟨2, ![R, D]⟩ : Shape).Idx → EReal) (init : EReal)
    (h' : (⟨2, ![R, D]⟩ : Shape).ReducesTo [1] (⟨1, ![R]⟩ : Shape))
    (h : (⟨2, ![R, D]⟩ : Shape).Reduces [1] (⟨1, ![R]⟩ : Shape)) (r : Fin R) :
    Ideal.hostReduceAdd h' x init (ix1 r) = init + ∑ k : Fin D, x (ix2 r k) := by
  rw [Ideal.hostReduceAdd_single h' h]
  exact congrArg (init + ·) (Finset.sum_congr rfl fun k _ => congrArg x (lift_row h r k))

/-- The f32 pattern of minus infinity denotes the bottom extended real. -/
theorem ofBits_negInf_f32 : Ideal.ofBits .f32 0xFF800000#32 = (⊥ : EReal) := by
  simp [Ideal.ofBits, Ideal.ieee]

/-- Minus infinity is neutral for `max`. -/
theorem max_negInf_left (y : EReal) : max (Ideal.ofBits .f32 0xFF800000#32) y = y := by
  rw [ofBits_negInf_f32]; exact max_eq_right bot_le

/-- A maximum taken from minus infinity, joined once more with minus infinity, is itself. -/
theorem max_negInf_fold (f : Fin D → EReal) :
    max (Ideal.ofBits .f32 0xFF800000#32) ((Finset.univ : Finset (Fin D)).fold max (Ideal.ofBits .f32 0xFF800000#32) f)
      = (Finset.univ : Finset (Fin D)).fold max (Ideal.ofBits .f32 0xFF800000#32) f :=
  max_negInf_left _

end Idealize.ShloMosaic.RowReduce

end
-- ==== Proof.RefNear.lean ====
/-
  The reference's first result read at an index is the soft nearest neighbour of the specification, with the
  squared distance grouped as (|q|² − 2⟨q,p⟩) + |p|².

  Each stage of the reference is read at explicit coordinates (n, m : Fin 8192 for a query / reference point,
  d : Fin 3 for a coordinate of space) and identified with the matching piece of the specification:
  squared norms, inner product, squared distance, score, largest score, exponentials, their sum, the softmax
  weight, and last the weighted sum over the reference points.
-/
import proofs.«164689_j1563368096435_1_alg».proof.Proof.Gen.ReferenceIdeal.Read
import proofs.«164689_j1563368096435_1_alg».proof.Proof.Spec
import proofs.«164689_j1563368096435_1_alg».proof.Proof.LibRowReduce
import Idealize.ShloMosaic.Lib.ValueIdx
import Idealize.ShloMosaic.PureOps.Ideal.Laws

noncomputable section

open scoped BigOperators

namespace Cert.SoftNearest

open Cert.ReferenceIdeal Cert.ReferenceIdeal.Gen Cert.ReferenceIdeal.Read Idealize.ShloMosaic Idealize.ShloMosaic.ValueIdx

section Stages

variable (x0 x1 : (⟨Cert.ReferenceIdeal.S3x8192, .f32⟩ : BufTy).Contents (Elt Ideal))

/-! ## The composed index functions at coordinates -/

theorem idx_v1_at (n : Fin 8192) (k : Fin 3) : idx_main_v1 (ix1 n) k = ix2 k n :=
  funext fun a => Fin.ext (by match a with | ⟨0, _⟩ => rfl | ⟨1, _⟩ => rfl)
theorem idx_v3_at (m : Fin 8192) (k : Fin 3) : idx_main_v3 (ix1 m) k = ix2 k m :=
  funext fun a => Fin.ext (by match a with | ⟨0, _⟩ => rfl | ⟨1, _⟩ => rfl)
theorem lidx_v4_at (n m : Fin 8192) (k : Fin 3) : lidx_main_v4 (ix2 n m) k = ix2 k n :=
  funext fun a => Fin.ext (by match a with | ⟨0, _⟩ => rfl | ⟨1, _⟩ => rfl)
theorem ridx_v4_at (n m : Fin 8192) (k : Fin 3) : ridx_main_v4 (ix2 n m) k = ix2 k m :=
  funext fun a => Fin.ext (by match a with | ⟨0, _⟩ => rfl | ⟨1, _⟩ => rfl)
/-- The row's squared norm, broadcast along the columns, is read at the row. -/
theorem idx_v8_at (n m : Fin 8192) : idx_main_v5 (idx_main_v8 (ix2 n m)) = ix1 n :=
  funext fun a => Fin.ext (by match a with | ⟨0, _⟩ => rfl)
/-- The column's squared norm, broadcast along the rows, is read at the column. -/
theorem idx_v11_at (n m : Fin 8192) : idx_main_v10 (idx_main_v11 (ix2 n m)) = ix1 m :=
  funext fun a => Fin.ext (by match a with | ⟨0, _⟩ => rfl)

/-! ## Squared norms, inner product, squared distance, score -/

/-- The first input's column sums of squares are the squared norms of its columns. -/
theorem v1_at (n : Fin 8192) :
    val_main_v1 (F := Ideal) x0 (ix1 n) = sqn (fun d' => x0 (ix2 d' n)) := by
  rw [val_main_v1_apply, val_main_cst_apply, Ideal.ofBits_def, Ideal.ofBits_zero_f32, zero_add]
  unfold sqn
  refine Finset.sum_congr rfl fun k _ => ?_
  rw [idx_v1_at, val_main_v0_apply, Ideal.mulf_def]

/-- The second input's column sums of squares are the squared norms of its columns. -/
theorem v3_at (m : Fin 8192) :
    val_main_v3 (F := Ideal) x1 (ix1 m) = sqn (fun d' => x1 (ix2 d' m)) := by
  rw [val_main_v3_apply, val_main_cst_0_apply, Ideal.ofBits_def, Ideal.ofBits_zero_f32, zero_add]
  unfold sqn
  refine Finset.sum_congr rfl fun k _ => ?_
  rw [idx_v3_at, val_main_v2_apply, Ideal.mulf_def]

/-- The contraction of the two inputs over the space axis is the inner product of a column of each. -/
theorem v4_at (n m : Fin 8192) :
    val_main_v4 (F := Ideal) x0 x1 (ix2 n m) = inner (fun d' => x0 (ix2 d' n)) (fun d' => x1 (ix2 d' m)) := by
  rw [val_main_v4_apply]
  unfold inner
  refine Finset.sum_congr rfl fun k _ => ?_
  rw [lidx_v4_at, ridx_v4_at]

/-- The squared distance, second grouping. -/
theorem v12_at (n m : Fin 8192) :
    val_main_v12 (F := Ideal) x0 x1 (ix2 n m) = dist2' (fun d' => x0 (ix2 d' n)) (fun d' => x1 (ix2 d' m)) := by
  rw [val_main_v12_apply, val_main_v9_apply, val_main_v8_apply, val_main_v5_apply, idx_v8_at, v1_at,
    val_main_v7_apply, val_main_v6_apply, val_main_cst_1_apply, v4_at,
    val_main_v11_apply, val_main_v10_apply, idx_v11_at, v3_at]
  simp only [Ideal.addf_def, Ideal.subf_def, Ideal.mulf_def, Ideal.ofBits_def]
  rfl

/-- The score of the squared distance: twice the reciprocal of the distance floored at ε. -/
theorem v17_at (n m : Fin 8192) :
    val_main_v17 (F := Ideal) x0 x1 (ix2 n m)
      = score (dist2' (fun d' => x0 (ix2 d' n)) (fun d' => x1 (ix2 d' m))) := by
  rw [val_main_v17_apply, val_main_v16_apply, val_main_cst_4_apply, val_main_v15_apply, val_main_v14_apply,
    val_main_cst_3_apply, val_main_v13_apply, val_main_call0_v1_apply, val_main_call0_v0_apply,
    val_main_cst_2_apply, v12_at]
  simp only [Ideal.mulf_def, Ideal.hostDivf_def, Ideal.maximumf_def, Ideal.ofBits_def]
  unfold score two one floorEps
  rw [max_comm]

/-! ## The largest score of a row -/

/-- The row maximum of the scores, from −∞, is the specification's largest score. -/
theorem v18_at (n : Fin 8192) :
    val_main_v18 (F := Ideal) x0 x1 (ix1 n)
      = top (fun m => score (dist2' (fun d' => x0 (ix2 d' n)) (fun d' => x1 (ix2 d' m)))) := by
  unfold val_main_v18
  rw [RowReduce.hostReduce_maximumf_row (val_main_v17 (F := Ideal) x0 x1) (val_main_cst_5 (F := Ideal))
    reducesTo_S8192x8192_S8192_d1 (by decide) h_S_ n, val_main_cst_5_apply, Ideal.ofBits_def]
  unfold top negInf
  exact congrArg (fun f => Finset.fold max (Ideal.ofBits .f32 0xFF800000#32) f (Finset.univ : Finset (Fin 8192)))
    (funext fun m => v17_at x0 x1 n m)

/-- Joined once more with −∞ it is unchanged. -/
theorem v20_at (n : Fin 8192) :
    val_main_v20 (F := Ideal) x0 x1 (ix1 n)
      = top (fun m => score (dist2' (fun d' => x0 (ix2 d' n)) (fun d' => x1 (ix2 d' m)))) := by
  rw [val_main_v20_apply, val_main_v19_apply, val_main_cst_6_apply, v18_at, Ideal.maximumf_def, Ideal.ofBits_def,
    RowReduce.max_negInf_left]

/-! ## Exponentials, their sum, the softmax weight -/

/-- A row's value broadcast along the columns is read at the row. -/
theorem idx_v22_at (n m : Fin 8192) : idx_main_v21 (idx_main_v22 (ix2 n m)) = ix1 n :=
  funext fun a => Fin.ext (by match a with | ⟨0, _⟩ => rfl)
theorem idx_v27_at (n m : Fin 8192) : idx_main_v26 (idx_main_v27 (ix2 n m)) = ix1 n :=
  funext fun a => Fin.ext (by match a with | ⟨0, _⟩ => rfl)
theorem idx_v25_at (n k : Fin 8192) : idx_main_v25 (ix1 n) k = ix2 n k :=
  funext fun a => Fin.ext (by match a with | ⟨0, _⟩ => rfl | ⟨1, _⟩ => rfl)
theorem lidx_v29_at (d : Fin 3) (n k : Fin 8192) : lidx_main_v29 (ix2 d n) k = ix2 d k :=
  funext fun a => Fin.ext (by match a with | ⟨0, _⟩ => rfl | ⟨1, _⟩ => rfl)
theorem ridx_v29_at (d : Fin 3) (n k : Fin 8192) : ridx_main_v29 (ix2 d n) k = ix2 n k :=
  funext fun a => Fin.ext (by match a with | ⟨0, _⟩ => rfl | ⟨1, _⟩ => rfl)

/-- The exponential of a score less the row's largest score. -/
theorem v24_at (n m : Fin 8192) :
    val_main_v24 (F := Ideal) x0 x1 (ix2 n m)
      = Ideal.exp (score (dist2' (fun d' => x0 (ix2 d' n)) (fun d' => x1 (ix2 d' m)))
          - top (fun m' => score (dist2' (fun d' => x0 (ix2 d' n)) (fun d' => x1 (ix2 d' m'))))) := by
  rw [val_main_v24_apply, val_main_v23_apply, v17_at, val_main_v22_apply, val_main_v21_apply, idx_v22_at, v20_at,
    Ideal.hostUnary_exp_def, Ideal.subf_def]

/-- The sum of a row's exponentials. -/
theorem v25_at (n : Fin 8192) :
    val_main_v25 (F := Ideal) x0 x1 (ix1 n)
      = ∑ m : Fin 8192, Ideal.exp (score (dist2' (fun d' => x0 (ix2 d' n)) (fun d' => x1 (ix2 d' m)))
          - top (fun m' => score (dist2' (fun d' => x0 (ix2 d' n)) (fun d' => x1 (ix2 d' m'))))) := by
  rw [val_main_v25_apply, val_main_cst_7_apply, Ideal.ofBits_def, Ideal.ofBits_zero_f32, zero_add]
  refine Finset.sum_congr rfl fun k _ => ?_
  rw [idx_v25_at, v24_at]

/-- The softmax weight of reference point m for query point n. -/
theorem v28_at (n m : Fin 8192) :
    val_main_v28 (F := Ideal) x0 x1 (ix2 n m)
      = Ideal.div
          (Ideal.exp (score (dist2' (fun d' => x0 (ix2 d' n)) (fun d' => x1 (ix2 d' m)))
            - top (fun m' => score (dist2' (fun d' => x0 (ix2 d' n)) (fun d' => x1 (ix2 d' m'))))))
          (∑ k : Fin 8192, Ideal.exp (score (dist2' (fun d' => x0 (ix2 d' n)) (fun d' => x1 (ix2 d' k)))
            - top (fun m' => score (dist2' (fun d' => x0 (ix2 d' n)) (fun d' => x1 (ix2 d' m')))))) := by
  rw [val_main_v28_apply, v24_at, val_main_v27_apply, val_main_v26_apply, idx_v27_at, v25_at, Ideal.hostDivf_def]

end Stages

/-! ## The result -/

/-- The reference's first result at (d, n) is coordinate d of the soft nearest neighbour of column n of the first
    input among the columns of the second, with the second grouping of the squared distance. -/
theorem ref_apply [Cert.ReferenceIdeal.Facts] (x0 x1 : (⟨Cert.ReferenceIdeal.S3x8192, .f32⟩ : BufTy).Contents (Elt Ideal)) (d : Fin 3) (n : Fin 8192) :
    Cert.ReferenceIdeal.Read.val_main_v29 (F := Ideal) x0 x1 (ix2 d n)
      = near' (fun d' => x0 (ix2 d' n)) (fun m d' => x1 (ix2 d' m)) d := by
  rw [val_main_v29_apply]
  unfold near' softAgg
  refine Finset.sum_congr rfl fun k _ => ?_
  rw [lidx_v29_at, ridx_v29_at, v28_at]

end Cert.SoftNearest

end
-- ==== Proof.KernelTail.lean ====
/-
  The second result of both programs: the mean, over the 8192 columns n, of the Euclidean norm of the column
  x[:, n] − p[:, n] + δ, where x is the first argument, p the array of soft nearest neighbours and δ a constant.
  Both programs compute it by the same chain of host operations applied to (x, p); it is carried as ONE
  function `meanDist` of the two arrays and never opened. Here: the kernel's program applies that chain to
  its first argument and to the array the region leaves in the result window.
-/
import proofs.«164689_j1563368096435_1_alg».proof.Proof.Gen.KernelIdeal.Frame
import Idealize.ShloMosaic.Lib.StableHlo.Run
import Idealize.ShloMosaic.Lib.Pipeline.Value
import Idealize.ShloMosaic.Lib.Tactic
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.SoftNearest

open Cert.KernelIdeal Cert.KernelIdeal.Gen

/-- The mean, over the 8192 columns, of the Euclidean norm of column (x − p + δ). -/
def meanDist (x p : FVec Ideal S3x8192 .f32) : FVec Ideal S_ .f32 :=
  Host.divf (F := Ideal)
    (Host.reduceAdd (F := Ideal)
      (Host.sqrt (F := Ideal)
        (Host.reduceAdd (F := Ideal)
          (mulf (addf (subf x p) (broadcastInDim S3x8192 ![] bcast_S_S3x8192 (constant (F := Ideal) S_ .f32 0x358637BD#32)))
            (addf (subf x p) (broadcastInDim S3x8192 ![] bcast_S_S3x8192 (constant (F := Ideal) S_ .f32 0x358637BD#32))))
          (constant (F := Ideal) S_ .f32 0x00000000#32) reducesTo_S3x8192_S8192_d0 h_S_))
      (constant (F := Ideal) S_ .f32 0x00000000#32) reducesTo_S8192_S_d0 h_S_)
    (constant (F := Ideal) S_ .f32 0x46000000#32)

variable (m : (ℓ : Loc nD τ sig) → Buf (Elt Ideal) ℓ) (ρ : Dev nD → PrngReg)

theorem tail_eq (c : Dev nD) :
    Pipeline.afterTail₀ cfgs (dats m) 0 (V0 m) [hostOps1] c main_v8
      = meanDist (m ((c : Thread nD τ).loc main_arg0)) ((dats m 0 c).arrAt 2 cfg0.N) := by
  unfold Pipeline.afterTail₀
  show StableHlo.after hostOps1 _ (Proc.devRef .tc main_v8) = _
  after_results
  have ea : Pipeline.withArrays (cfgs 0).spec c (V0 m c) (fun w => (dats m 0 c).arrAt w (cfgs 0).N) (Proc.devRef .tc main_arg0)
      = m ((c : Thread nD τ).loc main_arg0) :=
    (Pipeline.withArrays_arr spec0 launch0.win.arr_inj c _ _ 0).trans
      (((dats m 0 c).arrAt_in 0 rfl _).trans ((A_eq m c 0).trans (V_main_arg0 m c)))
  have ev : Pipeline.withArrays (cfgs 0).spec c (V0 m c) (fun w => (dats m 0 c).arrAt w (cfgs 0).N) (Proc.devRef .tc main_v0)
      = (dats m 0 c).arrAt 2 cfg0.N :=
    Pipeline.withArrays_arr spec0 launch0.win.arr_inj c _ _ 2
  rw [ea, ev]
  rfl

end Cert.SoftNearest

end
-- ==== Proof.LibKeepdims.lean ====
/-
  A row reduction that keeps its axis (`jnp.sum(x, axis=-1, keepdims=True)`, a mean or a variance per row) lowers to
  a reduction to `[a]`, a shape cast to the column `[a, 1]`, and — when the row statistic meets the rows again — a
  broadcast of that column to `[a, b]`. Read at an index given by coordinates:
  • the column cast `[a] → [a, 1]` at `(i, u)` is the vector at `i` (the unit coordinate `u` carries nothing);
  • the column broadcast `[a, 1] → [a, b]` at `(p, c)` is the column at `(p, 0)`: every entry of row `p` sees the
    one statistic of row `p`.
-/
import Idealize.ShloMosaic.Lib.ValueLayout

namespace Cert.Keepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibColumnSums.lean ====
/-
  Column sums of squares, taken in row blocks and rescaled: general facts, at the ideal instance where floats are
  extended reals.

  * `sum_idx1`: a sum over the index set of a rank-1 shape is the sum over its one coordinate.
  * `multiReduction_add_col`: for a vector `x` of shape [R, D], the kernel's reduction with an add body along the
    FIRST axis is, at column `k`, the sum of the column's entries `x (r, k)`, `r : Fin R`.
  * `sum_blocks`: a sum over `N = B·R` rows is the sum over `B` blocks of the sums over the `R` rows of each block,
    row `R·t + r` being row `r` of block `t`.
  * `mul_self_nonneg`: a square of an extended real is nonnegative (also at the two infinities).
  * `sum_mul_of_nonneg`: a finite sum of NONNEGATIVE extended reals times `c` is the sum of the products. In the
    extended reals `(a + b)·c = a·c + b·c` fails in general (`a = ⊤`, `b = ⊥`), but it holds for `0 ≤ a, b`.
  * `sum_sq_scaled`: `∑ (xᵢ·c)·(xᵢ·c) = (∑ xᵢ·xᵢ)·(c·c)` for ANY extended reals `xᵢ` and `c`: scaling every entry by
    `c` before squaring and summing is scaling the sum of squares by `c²`.
-/
import Idealize.ShloMosaic.PureOps.Ideal.Laws
import Idealize.ShloMosaic.Lib.ValueIdx
import Mathlib.Data.EReal.Operations
import Mathlib.Logic.Equiv.Fin.Basic
import Mathlib.Algebra.BigOperators.Fin
import Mathlib.Data.Fintype.BigOperators

noncomputable section

open scoped BigOperators

namespace Cert.ColumnSums

open Idealize.ShloMosaic Idealize.ShloMosaic.ValueIdx

/-! ## Sums over a rank-1 index set -/

/-- A rank-1 index set is its one coordinate range. -/
def idxEquiv1 {n : Nat} : (⟨1, ![n]⟩ : Shape).Idx ≃ Fin n where
  toFun i := i 0
  invFun k := ix1 k
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

/-! ## A reduction along the first axis, read at a column -/

variable {φ : FTy} {R D : Nat}

/-- Column `k` with row `r` put back on the reduced first axis is the index (r, k). -/
theorem lift_col (h : (⟨2, ![R, D]⟩ : Shape).Reduces [0] (⟨1, ![D]⟩ : Shape)) (k : Fin D)
    (r : Fin ((⟨2, ![R, D]⟩ : Shape).size 0)) : h.lift (ix1 k) r = ix2 (⟨r.val, r.isLt⟩ : Fin R) k := by
  funext c; apply Fin.ext
  fin_cases c <;> rfl

/-- A reduction with an add body over the rows, at column `k`: the sum of that column's entries. -/
theorem multiReduction_add_col (x : FVec Ideal ⟨2, ![R, D]⟩ φ) (acc : BitVec φ.bits)
    (h : (⟨2, ![R, D]⟩ : Shape).Reduces [0] (⟨1, ![D]⟩ : Shape)) (hφ : FKind.Formats φ)
    (hacc : acc = FKind.add.neutral φ hφ) (k : Fin D) :
    multiReduction .add [0] ⟨1, ![D]⟩ x acc h hφ hacc (ix1 k) = ∑ r : Fin R, x (ix2 r k) := by
  rw [Ideal.multiReduction_add_single]
  exact Finset.sum_congr rfl fun r _ => congrArg x (lift_col h k r)

/-! ## A sum over rows taken block by block -/

/-- Row `r` of block `t` is a row of the whole: `R·t + r < B·R`. -/
theorem block_row_lt {B R : Nat} (t : Fin B) (r : Fin R) : R * t.val + r.val < B * R :=
  calc R * t.val + r.val < R * t.val + R := Nat.add_lt_add_left r.isLt _
    _ = R * (t.val + 1) := (Nat.mul_succ R t.val).symm
    _ ≤ R * B := Nat.mul_le_mul_left R t.isLt
    _ = B * R := Nat.mul_comm R B

/-- `N = B·R` rows as `B` blocks of `R` rows: the sum over the rows is the sum, over the blocks, of each
    block's sum; row `R·t + r` is row `r` of block `t`. -/
theorem sum_blocks {M : Type*} [AddCommMonoid M] (B R N : Nat) (hN : N = B * R) (f : Fin N → M) :
    ∑ i, f i = ∑ t : Fin B, ∑ r : Fin R, f ⟨R * t.val + r.val, hN ▸ block_row_lt t r⟩ := by
  subst hN
  rw [← Equiv.sum_comp finProdFinEquiv f, Fintype.sum_prod_type]
  refine Finset.sum_congr rfl fun t _ => Finset.sum_congr rfl fun r _ => congrArg f (Fin.ext ?_)
  show r.val + R * t.val = R * t.val + r.val
  exact Nat.add_comm _ _

/-! ## Nonnegative extended reals: distributivity over a finite sum -/

/-- A square is nonnegative, at the infinities too. -/
theorem mul_self_nonneg (x : EReal) : 0 ≤ x * x := by
  rcases le_total 0 x with h | h
  · exact EReal.mul_nonneg_iff.mpr (Or.inl ⟨h, h⟩)
  · exact EReal.mul_nonneg_iff.mpr (Or.inr ⟨h, h⟩)

/-- A finite sum of nonnegative extended reals, times `c`, is the sum of the products. -/
theorem sum_mul_of_nonneg {ι : Type*} (s : Finset ι) (a : ι → EReal) (ha : ∀ i ∈ s, 0 ≤ a i) (c : EReal) :
    ∑ i ∈ s, a i * c = (∑ i ∈ s, a i) * c := by
  classical
  induction s using Finset.induction_on with
  | empty => rw [Finset.sum_empty, Finset.sum_empty, zero_mul]
  | insert j s hj ih =>
    rw [Finset.sum_insert hj, Finset.sum_insert hj,
      ih (fun i hi => ha i (Finset.mem_insert_of_mem hi)),
      EReal.right_distrib_of_nonneg (ha j (Finset.mem_insert_self j s))
        (Finset.sum_nonneg fun i hi => ha i (Finset.mem_insert_of_mem hi))]

/-- Scaling every entry by `c` before squaring and summing is scaling the sum of squares by `c·c`. -/
theorem sum_sq_scaled {ι : Type*} [Fintype ι] (x : ι → EReal) (c : EReal) :
    ∑ i, (x i * c) * (x i * c) = (∑ i, x i * x i) * (c * c) := by
  rw [← sum_mul_of_nonneg Finset.univ (fun i => x i * x i) (fun i _ => mul_self_nonneg (x i)) (c * c)]
  exact Finset.sum_congr rfl fun i _ => mul_mul_mul_comm (x i) c (x i) c

end Cert.ColumnSums

end
-- ==== Proof.KernelNear.lean ====
/-
  What the kernel body stores, read at an index of the block.

  The body forms, for a block of 256 query points (the columns of a [3, 256] array) and all 8192 reference points
  (the columns of a [3, 8192] array): the squared norms of both families as column sums of squares, the matrix of
  inner products by a contraction over the three coordinates, the squared distances (|q|² + |p|²) − 2⟨q, p⟩, the
  scores 2 · (1 / max (distance², ε)), their row maxima, the exponentials of the scores less the row maximum, the
  row sums of those, the quotients, and the contraction of the reference points with the quotients over the
  reference index. Read one stage at a time at an index given by coordinates, the result at (d, n) is coordinate d of
  the soft nearest neighbour of query column n among the reference columns, first grouping of the squared distance.
-/
import proofs.«164689_j1563368096435_1_alg».proof.Proof.Gen.KernelIdeal.Skeleton
import proofs.«164689_j1563368096435_1_alg».proof.Proof.Spec
import proofs.«164689_j1563368096435_1_alg».proof.Proof.LibKeepdims
import proofs.«164689_j1563368096435_1_alg».proof.Proof.LibRowReduce
import proofs.«164689_j1563368096435_1_alg».proof.Proof.LibColumnSums
import Idealize.ShloMosaic.Lib.ValueIdx
import Idealize.ShloMosaic.Lib.ValueLayout
import Idealize.ShloMosaic.PureOps.Ideal.Laws

noncomputable section

open scoped BigOperators

namespace Cert.SoftNearest

open Idealize.ShloMosaic Idealize.ShloMosaic.ValueIdx Cert.KernelIdeal Cert.KernelIdeal.Gen

/-! ## The stages of the body, as functions of the two operands -/

/-- The squared norms of the query columns: the column sums of the squares. -/
def qNorms (v0 : FVec Ideal S3x256 .f32) : FVec Ideal S256 .f32 :=
  multiReduction (F := Ideal) .add [0] S256 (mulf v0 v0) 0x00000000#32 reduces_S3x256_S256 (.inl rfl) rfl

/-- The squared norms of the reference columns. -/
def pNorms (v1 : FVec Ideal S3x8192 .f32) : FVec Ideal S8192 .f32 :=
  multiReduction (F := Ideal) .add [0] S8192 (mulf v1 v1) 0x00000000#32 reduces_S3x8192_S8192 (.inl rfl) rfl

/-- The inner products of every query column with every reference column. -/
def dots (v0 : FVec Ideal S3x256 .f32) (v1 : FVec Ideal S3x8192 .f32) : FVec Ideal S256x8192 .f32 :=
  matmul dot_S3x256_S3x8192_S256x8192_0_0_1_1_n_n none v0 v1 (constant (F := Ideal) S256x8192 .f32 0x00000000#32)

/-- The squared norms of the queries, one per row, spread along the rows. -/
def qSpread (v0 : FVec Ideal S3x256 .f32) : FVec Ideal S256x8192 .f32 :=
  broadcastTo S256x8192
    (transpose S256x1 [1, 0] (shapeCast S1x256 (qNorms v0) shapeCasts_S256_S1x256) transposes_S1x256_p1_0_S256x1)
    broadcasts_S256x1_S256x8192

/-- The squared norms of the reference points, one per column, spread along the columns. -/
def pSpread (v1 : FVec Ideal S3x8192 .f32) : FVec Ideal S256x8192 .f32 :=
  broadcastTo S256x8192 (shapeCast S1x8192 (pNorms v1) shapeCasts_S8192_S1x8192) broadcasts_S1x8192_S256x8192

/-- The squared distances, grouped (|q|² + |p|²) − 2⟨q, p⟩. -/
def dists (v0 : FVec Ideal S3x256 .f32) (v1 : FVec Ideal S3x8192 .f32) : FVec Ideal S256x8192 .f32 :=
  subf (addf (qSpread v0) (pSpread v1))
    (mulf (broadcast S256x8192 (Scalar.ofBits (F := Ideal) .f32 0x40000000#32)) (dots v0 v1))

/-- The scores: twice the reciprocal of the squared distance floored at ε. -/
def scores (v0 : FVec Ideal S3x256 .f32) (v1 : FVec Ideal S3x8192 .f32) : FVec Ideal S256x8192 .f32 :=
  mulf (broadcast S256x8192 (Scalar.ofBits (F := Ideal) .f32 0x40000000#32))
    (divf (broadcast S256x8192 (Scalar.ofBits (F := Ideal) .f32 0x3F800000#32))
      (maximumf (dists v0 v1) (broadcast S256x8192 (Scalar.ofBits (F := Ideal) .f32 0x3727C5AC#32))))

/-- The largest score of each row. -/
def tops (v0 : FVec Ideal S3x256 .f32) (v1 : FVec Ideal S3x8192 .f32) : FVec Ideal S256 .f32 :=
  multiReduction (F := Ideal) .maximumf [1] S256 (scores v0 v1) 0xFF800000#32 reduces_S256x8192_S256 (.inl rfl) rfl

/-- The exponentials of the scores less their row's largest. -/
def exps (v0 : FVec Ideal S3x256 .f32) (v1 : FVec Ideal S3x8192 .f32) : FVec Ideal S256x8192 .f32 :=
  exp (subf (scores v0 v1)
    (broadcastTo S256x8192 (shapeCast S256x1 (tops v0 v1) shapeCasts_S256_S256x1) broadcasts_S256x1_S256x8192))

/-- The sum of each row of exponentials. -/
def expSums (v0 : FVec Ideal S3x256 .f32) (v1 : FVec Ideal S3x8192 .f32) : FVec Ideal S256 .f32 :=
  multiReduction (F := Ideal) .add [1] S256 (exps v0 v1) 0x00000000#32 reduces_S256x8192_S256 (.inl rfl) rfl

/-- The weights: each exponential over its row's sum. -/
def weights (v0 : FVec Ideal S3x256 .f32) (v1 : FVec Ideal S3x8192 .f32) : FVec Ideal S256x8192 .f32 :=
  divf (exps v0 v1)
    (broadcastTo S256x8192 (shapeCast S256x1 (expSums v0 v1) shapeCasts_S256_S256x1) broadcasts_S256x1_S256x8192)

/-- The body is the contraction of the reference points with the weights over the reference index. -/
theorem pay_eq_stages (v0 : FVec Ideal S3x256 .f32) (v1 : FVec Ideal S3x8192 .f32) :
    k0_pay1 (F := Ideal) v0 v1
      = matmul dot_S3x8192_S256x8192_S3x256_1_1_0_0_n_n none v1 (weights v0 v1)
          (constant (F := Ideal) S3x256 .f32 0x00000000#32) := rfl

/-! ## The stages read at an index -/

/-- The squared norm of query column `n`. -/
theorem qNorms_apply (v0 : FVec Ideal S3x256 .f32) (n : Fin 256) :
    qNorms v0 (ix1 n) = sqn (fun d => v0 (ix2 d n)) := by
  unfold qNorms sqn
  exact Cert.ColumnSums.multiReduction_add_col (mulf v0 v0) _ _ _ _ n

/-- The squared norm of reference column `m`. -/
theorem pNorms_apply (v1 : FVec Ideal S3x8192 .f32) (m : Fin 8192) :
    pNorms v1 (ix1 m) = sqn (fun d => v1 (ix2 d m)) := by
  unfold pNorms sqn
  exact Cert.ColumnSums.multiReduction_add_col (mulf v1 v1) _ _ _ _ m

/-- Row `n` of the spread query norms is the squared norm of query column `n`. -/
theorem qSpread_apply (v0 : FVec Ideal S3x256 .f32) (n : Fin 256) (m : Fin 8192) :
    qSpread v0 (ix2 n m) = sqn (fun d => v0 (ix2 d n)) := by
  unfold qSpread
  rw [Cert.Keepdims.broadcastTo_a1_ab_apply, transpose_ix2_apply, shapeCast_a_1a_apply]
  exact qNorms_apply v0 n

/-- Column `m` of the spread reference norms is the squared norm of reference column `m`. -/
theorem pSpread_apply (v1 : FVec Ideal S3x8192 .f32) (n : Fin 256) (m : Fin 8192) :
    pSpread v1 (ix2 n m) = sqn (fun d => v1 (ix2 d m)) := by
  unfold pSpread
  rw [broadcastTo_1b_ab_apply, shapeCast_a_1a_apply]
  exact pNorms_apply v1 m

/-! ### The contraction over the three coordinates -/

theorem lhs_dots_0 (i : S256x8192.Idx) (q : dot_S3x256_S3x8192_S256x8192_0_0_1_1_n_n.contr.Idx) :
    (dot_S3x256_S3x8192_S256x8192_0_0_1_1_n_n.lhsIdx i q 0).val = (q ⟨0, by decide⟩).val :=
  dot_S3x256_S3x8192_S256x8192_0_0_1_1_n_n.lhsIdx_val_of_single rfl i q
theorem lhs_dots_1 (i : S256x8192.Idx) (q : dot_S3x256_S3x8192_S256x8192_0_0_1_1_n_n.contr.Idx) :
    (dot_S3x256_S3x8192_S256x8192_0_0_1_1_n_n.lhsIdx i q 1).val = (i 0).val := by
  unfold DotDims.lhsIdx
  rw [dif_neg (show ¬(1 : Fin S3x256.rank) ∈ dot_S3x256_S3x8192_S256x8192_0_0_1_1_n_n.lhsBatch by decide), dif_pos (show (1 : Fin S3x256.rank) ∈ dot_S3x256_S3x8192_S256x8192_0_0_1_1_n_n.lhsNonContracting by decide)]
  rfl
theorem rhs_dots_0 (i : S256x8192.Idx) (q : dot_S3x256_S3x8192_S256x8192_0_0_1_1_n_n.contr.Idx) :
    (dot_S3x256_S3x8192_S256x8192_0_0_1_1_n_n.rhsIdx i q 0).val = (q ⟨0, by decide⟩).val :=
  dot_S3x256_S3x8192_S256x8192_0_0_1_1_n_n.rhsIdx_val_of_single rfl i q
theorem rhs_dots_1 (i : S256x8192.Idx) (q : dot_S3x256_S3x8192_S256x8192_0_0_1_1_n_n.contr.Idx) :
    (dot_S3x256_S3x8192_S256x8192_0_0_1_1_n_n.rhsIdx i q 1).val = (i 1).val := by
  unfold DotDims.rhsIdx
  rw [dif_neg (show ¬(1 : Fin S3x8192.rank) ∈ dot_S3x256_S3x8192_S256x8192_0_0_1_1_n_n.rhsBatch by decide), dif_pos (show (1 : Fin S3x8192.rank) ∈ dot_S3x256_S3x8192_S256x8192_0_0_1_1_n_n.rhsNonContracting by decide)]
  rfl

/-- Entry (n, m) of the contraction is the inner product of query column `n` with reference column `m`. -/
theorem dots_apply (v0 : FVec Ideal S3x256 .f32) (v1 : FVec Ideal S3x8192 .f32) (n : Fin 256) (m : Fin 8192) :
    dots v0 v1 (ix2 n m) = inner (fun d => v0 (ix2 d n)) (fun d => v1 (ix2 d m)) := by
  unfold dots inner
  simp only [matmul]
  rw [Ideal.matmul_constant_zero_apply, ← Equiv.sum_comp (ValueIdx.contrEquiv1 dot_S3x256_S3x8192_S256x8192_0_0_1_1_n_n 3 rfl rfl).symm]
  refine Finset.sum_congr rfl fun k _ => ?_
  have hk := ValueIdx.contrEquiv1_symm_val dot_S3x256_S3x8192_S256x8192_0_0_1_1_n_n 3 rfl rfl k
  have el : dot_S3x256_S3x8192_S256x8192_0_0_1_1_n_n.lhsIdx (ix2 n m) ((ValueIdx.contrEquiv1 dot_S3x256_S3x8192_S256x8192_0_0_1_1_n_n 3 rfl rfl).symm k) = ix2 k n := funext fun a => Fin.ext (by
    match a with
    | ⟨0, _⟩ => exact (lhs_dots_0 _ _).trans hk
    | ⟨1, _⟩ => exact lhs_dots_1 _ _)
  have er : dot_S3x256_S3x8192_S256x8192_0_0_1_1_n_n.rhsIdx (ix2 n m) ((ValueIdx.contrEquiv1 dot_S3x256_S3x8192_S256x8192_0_0_1_1_n_n 3 rfl rfl).symm k) = ix2 k m := funext fun a => Fin.ext (by
    match a with
    | ⟨0, _⟩ => exact (rhs_dots_0 _ _).trans hk
    | ⟨1, _⟩ => exact rhs_dots_1 _ _)
  rw [el, er]

/-! ### The pointwise chain, the row maximum and the row sum -/

/-- Entry (n, m) of the squared distances is the squared distance of query column `n` to reference column `m`. -/
theorem dists_apply (v0 : FVec Ideal S3x256 .f32) (v1 : FVec Ideal S3x8192 .f32) (n : Fin 256) (m : Fin 8192) :
    dists v0 v1 (ix2 n m) = dist2 (fun d => v0 (ix2 d n)) (fun d => v1 (ix2 d m)) := by
  unfold dist2 two
  rw [← qSpread_apply v0 n m, ← pSpread_apply v1 n m, ← dots_apply v0 v1 n m]
  rfl

/-- Entry (n, m) of the scores is the score of that squared distance. -/
theorem scores_apply (v0 : FVec Ideal S3x256 .f32) (v1 : FVec Ideal S3x8192 .f32) (n : Fin 256) (m : Fin 8192) :
    scores v0 v1 (ix2 n m) = score (dist2 (fun d => v0 (ix2 d n)) (fun d => v1 (ix2 d m))) := by
  unfold score two one floorEps
  rw [← dists_apply v0 v1 n m]
  rfl

/-- The largest score of row `n`. -/
theorem tops_apply (v0 : FVec Ideal S3x256 .f32) (v1 : FVec Ideal S3x8192 .f32) (n : Fin 256) :
    tops v0 v1 (ix1 n)
      = top (fun m : Fin 8192 => score (dist2 (fun d => v0 (ix2 d n)) (fun d => v1 (ix2 d m)))) := by
  unfold tops top negInf
  refine (Idealize.ShloMosaic.RowReduce.multiReduction_maximumf_row (scores v0 v1) _ _ _ _ n).trans ?_
  exact congrArg (fun f => Finset.fold max (Ideal.ofBits .f32 0xFF800000#32) f (Finset.univ : Finset (Fin 8192)))
    (funext fun m => scores_apply v0 v1 n m)

/-- Entry (n, m) of the exponentials. -/
theorem exps_apply (v0 : FVec Ideal S3x256 .f32) (v1 : FVec Ideal S3x8192 .f32) (n : Fin 256) (m : Fin 8192) :
    exps v0 v1 (ix2 n m)
      = Ideal.exp (score (dist2 (fun d => v0 (ix2 d n)) (fun d => v1 (ix2 d m)))
          - top (fun m' : Fin 8192 => score (dist2 (fun d => v0 (ix2 d n)) (fun d => v1 (ix2 d m'))))) := by
  have hb : broadcastTo S256x8192 (shapeCast S256x1 (tops v0 v1) shapeCasts_S256_S256x1) broadcasts_S256x1_S256x8192 (ix2 n m)
      = tops v0 v1 (ix1 n) := by
    rw [Cert.Keepdims.broadcastTo_a1_ab_apply, Cert.Keepdims.shapeCast_a_a1_apply]
  rw [← scores_apply v0 v1 n m, ← tops_apply v0 v1 n, ← hb]
  rfl

/-- The sum of row `n` of the exponentials. -/
theorem expSums_apply (v0 : FVec Ideal S3x256 .f32) (v1 : FVec Ideal S3x8192 .f32) (n : Fin 256) :
    expSums v0 v1 (ix1 n)
      = ∑ m : Fin 8192, Ideal.exp (score (dist2 (fun d => v0 (ix2 d n)) (fun d => v1 (ix2 d m)))
          - top (fun m' : Fin 8192 => score (dist2 (fun d => v0 (ix2 d n)) (fun d => v1 (ix2 d m'))))) := by
  unfold expSums
  refine (Idealize.ShloMosaic.RowReduce.multiReduction_add_row (exps v0 v1) _ _ _ _ n).trans ?_
  exact Finset.sum_congr rfl fun m _ => exps_apply v0 v1 n m

/-- Entry (n, m) of the weights: the exponential over its row's sum. -/
theorem weights_apply (v0 : FVec Ideal S3x256 .f32) (v1 : FVec Ideal S3x8192 .f32) (n : Fin 256) (m : Fin 8192) :
    weights v0 v1 (ix2 n m)
      = Ideal.div
          (Ideal.exp (score (dist2 (fun d => v0 (ix2 d n)) (fun d => v1 (ix2 d m)))
            - top (fun m' : Fin 8192 => score (dist2 (fun d => v0 (ix2 d n)) (fun d => v1 (ix2 d m'))))))
          (∑ m'' : Fin 8192, Ideal.exp (score (dist2 (fun d => v0 (ix2 d n)) (fun d => v1 (ix2 d m'')))
            - top (fun m' : Fin 8192 => score (dist2 (fun d => v0 (ix2 d n)) (fun d => v1 (ix2 d m')))))) := by
  have hb : broadcastTo S256x8192 (shapeCast S256x1 (expSums v0 v1) shapeCasts_S256_S256x1) broadcasts_S256x1_S256x8192 (ix2 n m)
      = expSums v0 v1 (ix1 n) := by
    rw [Cert.Keepdims.broadcastTo_a1_ab_apply, Cert.Keepdims.shapeCast_a_a1_apply]
  rw [← exps_apply v0 v1 n m, ← expSums_apply v0 v1 n, ← hb]
  rfl

/-! ### The contraction over the reference index -/

theorem lhs_agg_0 (i : S3x256.Idx) (q : dot_S3x8192_S256x8192_S3x256_1_1_0_0_n_n.contr.Idx) :
    (dot_S3x8192_S256x8192_S3x256_1_1_0_0_n_n.lhsIdx i q 0).val = (i 0).val := by
  unfold DotDims.lhsIdx
  rw [dif_neg (show ¬(0 : Fin S3x8192.rank) ∈ dot_S3x8192_S256x8192_S3x256_1_1_0_0_n_n.lhsBatch by decide), dif_pos (show (0 : Fin S3x8192.rank) ∈ dot_S3x8192_S256x8192_S3x256_1_1_0_0_n_n.lhsNonContracting by decide)]
  rfl
theorem lhs_agg_1 (i : S3x256.Idx) (q : dot_S3x8192_S256x8192_S3x256_1_1_0_0_n_n.contr.Idx) :
    (dot_S3x8192_S256x8192_S3x256_1_1_0_0_n_n.lhsIdx i q 1).val = (q ⟨0, by decide⟩).val :=
  dot_S3x8192_S256x8192_S3x256_1_1_0_0_n_n.lhsIdx_val_of_single rfl i q
theorem rhs_agg_0 (i : S3x256.Idx) (q : dot_S3x8192_S256x8192_S3x256_1_1_0_0_n_n.contr.Idx) :
    (dot_S3x8192_S256x8192_S3x256_1_1_0_0_n_n.rhsIdx i q 0).val = (i 1).val := by
  unfold DotDims.rhsIdx
  rw [dif_neg (show ¬(0 : Fin S256x8192.rank) ∈ dot_S3x8192_S256x8192_S3x256_1_1_0_0_n_n.rhsBatch by decide), dif_pos (show (0 : Fin S256x8192.rank) ∈ dot_S3x8192_S256x8192_S3x256_1_1_0_0_n_n.rhsNonContracting by decide)]
  rfl
theorem rhs_agg_1 (i : S3x256.Idx) (q : dot_S3x8192_S256x8192_S3x256_1_1_0_0_n_n.contr.Idx) :
    (dot_S3x8192_S256x8192_S3x256_1_1_0_0_n_n.rhsIdx i q 1).val = (q ⟨0, by decide⟩).val :=
  dot_S3x8192_S256x8192_S3x256_1_1_0_0_n_n.rhsIdx_val_of_single rfl i q

/-- The contraction of the reference points with a matrix `w` over the reference index, at (d, n): the sum over
    the reference points of coordinate `d` of the point times entry (n, m) of `w`. -/
theorem agg_apply (v1 : FVec Ideal S3x8192 .f32) (w : FVec Ideal S256x8192 .f32) (d : Fin 3) (n : Fin 256) :
    matmul dot_S3x8192_S256x8192_S3x256_1_1_0_0_n_n none v1 w (constant (F := Ideal) S3x256 .f32 0x00000000#32) (ix2 d n)
      = ∑ m : Fin 8192, v1 (ix2 d m) * w (ix2 n m) := by
  simp only [matmul]
  rw [Ideal.matmul_constant_zero_apply, ← Equiv.sum_comp (ValueIdx.contrEquiv1 dot_S3x8192_S256x8192_S3x256_1_1_0_0_n_n 8192 rfl rfl).symm]
  refine Finset.sum_congr rfl fun k _ => ?_
  have hk := ValueIdx.contrEquiv1_symm_val dot_S3x8192_S256x8192_S3x256_1_1_0_0_n_n 8192 rfl rfl k
  have el : dot_S3x8192_S256x8192_S3x256_1_1_0_0_n_n.lhsIdx (ix2 d n) ((ValueIdx.contrEquiv1 dot_S3x8192_S256x8192_S3x256_1_1_0_0_n_n 8192 rfl rfl).symm k) = ix2 d k := funext fun a => Fin.ext (by
    match a with
    | ⟨0, _⟩ => exact lhs_agg_0 _ _
    | ⟨1, _⟩ => exact (lhs_agg_1 _ _).trans hk)
  have er : dot_S3x8192_S256x8192_S3x256_1_1_0_0_n_n.rhsIdx (ix2 d n) ((ValueIdx.contrEquiv1 dot_S3x8192_S256x8192_S3x256_1_1_0_0_n_n 8192 rfl rfl).symm k) = ix2 n k := funext fun a => Fin.ext (by
    match a with
    | ⟨0, _⟩ => exact rhs_agg_0 _ _
    | ⟨1, _⟩ => exact (rhs_agg_1 _ _).trans hk)
  rw [el, er]

/-! ## The body at an index -/

/-- What the body stores at (d, n): coordinate `d` of the soft nearest neighbour of query column `n` among the
    reference columns, with the squared distance grouped (|q|² + |p|²) − 2⟨q, p⟩. -/
theorem pay_apply [Cert.KernelIdeal.Facts] (v0 : Vec Ideal Cert.KernelIdeal.S3x256 .f32) (v1 : Vec Ideal Cert.KernelIdeal.S3x8192 .f32) (d : Fin 3) (n : Fin 256) :
    Cert.KernelIdeal.Gen.k0_pay1 (F := Ideal) v0 v1 (ix2 d n)
      = near (fun d' => v0 (ix2 d' n)) (fun m d' => v1 (ix2 d' m)) d := by
  rw [pay_eq_stages v0 v1, agg_apply v1 (weights v0 v1) d n]
  unfold near softAgg
  exact Finset.sum_congr rfl fun m _ => congrArg (v1 (ix2 d m) * ·) (weights_apply v0 v1 n m)

end Cert.SoftNearest

end
-- ==== Proof.KernelValue.lean ====
/-
  The array the kernel leaves in its result window. Grid point t (t < 32) stages columns 256·t … 256·t + 255 of
  the first argument and the whole second argument, and writes back a [3, 256] block whose entry (d, n) is
  coordinate d of the soft nearest neighbour of column 256·t + n of the first argument among the columns of
  the second (the body's value at an index). So the block point t writes back is block t of ONE [3, 8192]
  array, `outArr`; the 32 blocks tile the columns (column n lies in the block of point n / 256), hence the
  result array ends holding `outArr`.
-/
import proofs.«164689_j1563368096435_1_alg».proof.Proof.Gen.KernelIdeal.Frame
import proofs.«164689_j1563368096435_1_alg».proof.Proof.Spec
import proofs.«164689_j1563368096435_1_alg».proof.Proof.KernelNear
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.SoftNearest

open Cert.KernelIdeal Cert.KernelIdeal.Gen

variable (m : (ℓ : Loc nD τ sig) → Buf (Elt Ideal) ℓ) (ρ : Dev nD → PrngReg)

/-- The zero offsets of a rectangle that is the whole buffer. -/
theorem hz : (![0, 0] : Fin 2 → Nat) = fun _ => 0 := funext fun a => by fin_cases a <;> rfl

/-- The index maps over the 32 grid points: the first argument's and the result's block index is (0, t), the second
    argument's is (0, 0). -/
theorem idx_facts : ∀ t : Fin cfg0.N, win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = t.val :=
  (by decide +kernel : ∀ t : Fin grid0.N, _)

/-- The result array: the soft nearest neighbour of every column of the first argument among the columns of the second. -/
abbrev outArr (c : Dev nD) : S3x8192.Idx → EReal :=
  nearAll (M := 8192) (N := 8192) (m ((c : Thread nD τ).loc main_arg0) : S3x8192.Idx → Elt Ideal .f32)
    (m ((c : Thread nD τ).loc main_arg1) : S3x8192.Idx → Elt Ideal .f32)

/-- One stored element: entry (d, n) of the body's block is the soft nearest neighbour of the column the block's
    column n comes from. -/
theorem elem (x0 : Vec Ideal S3x256 .f32) (x1 : Vec Ideal S3x8192 .f32) (X Y : S3x8192.Idx → EReal) (d : Fin 3) (n : Fin 256)
    (i : S3x8192.Idx) (hi0 : (i 0).val = d.val) (hcol : ∀ d' : Fin 3, x0 (ix2 d' n) = X (ix2 d' (i 1))) (hY : x1 = Y) :
    k0_pay1 (F := Ideal) x0 x1 (ix2 d n) = nearAll (M := 8192) (N := 8192) X Y i := by
  subst hY
  rw [pay_apply]
  unfold nearAll
  have hd : i 0 = d := Fin.ext hi0
  rw [hd]
  exact congrArg (fun q => near q (fun m d' => x1 (ix2 d' m)) d) (funext hcol)

/-- What point `t` writes back is block `t` of `outArr`: its column n is column 256·t + n of the first argument, and the
    second argument is staged whole. -/
theorem flushed_eq (c : Dev nD) (t : Fin cfg0.N) :
    (dats m 0 c).flushed 2 t = ((cfg0.win 2).blk t).view.read (Elt Ideal) (outArr m c) := by
  show (cfg0.win 2).cut (grid0.coords t) ((dats m 0 c).after 2 t) = _
  rw [after0_2]
  unfold out0_2
  rw [View.canon_unit_zero hz]
  simp only [View.ld_unit_zero (S := S3x256) hz, View.ld_unit_zero (S := S3x8192) hz]
  obtain ⟨e0, e1, e2, e3, e4, e5⟩ := idx_facts t
  funext j
  show k0_pay1 (F := Ideal) (iblk m c 0 t) (iblk m c 1 t) j = outArr m c (((cfg0.win 2).blk t).view.emb j)
  have hj : (j : S3x256.Idx) = ix2 (j 0) (j 1) := eq_ix2 _
  refine (congrArg (k0_pay1 (F := Ideal) (iblk m c 0 t) (iblk m c 1 t)) hj).trans ?_
  refine elem (iblk m c 0 t) (iblk m c 1 t) (m ((c : Thread nD τ).loc main_arg0)) (m ((c : Thread nD τ).loc main_arg1)) (j 0) (j 1)
    (((cfg0.win 2).blk t).view.emb j) ?_ ?_ ?_
  · show win0_2.index t (0 : Fin 2) * 3 + 1 * (j 0).val = (j 0).val
    omega
  · intro d'
    unfold iblk
    rw [View.read_apply]
    show V m c main_arg0 _ = m ((c : Thread nD τ).loc main_arg0) _
    unfold V
    congr 1
    funext a
    apply Fin.ext
    match a with
    | ⟨0, _⟩ => show win0_0.index t (0 : Fin 2) * 3 + 1 * d'.val = d'.val; omega
    | ⟨1, _⟩ => show win0_0.index t (1 : Fin 2) * 256 + 1 * (j 1).val = win0_2.index t (1 : Fin 2) * 256 + 1 * (j 1).val; omega
  · funext y
    unfold iblk
    rw [View.read_apply]
    show V m c main_arg1 _ = m ((c : Thread nD τ).loc main_arg1) _
    unfold V
    congr 1
    funext a
    apply Fin.ext
    match a with
    | ⟨0, _⟩ => show win0_1.index t (0 : Fin 2) * 3 + 1 * (y 0).val = (y 0).val; omega
    | ⟨1, _⟩ => show win0_1.index t (1 : Fin 2) * 8192 + 1 * (y 1).val = (y 1).val; omega

/-- An index of the result array is in point `t`'s block iff each coordinate is in the block's range on its axis. -/
theorem mem_blk (t : Fin cfg0.N) (i : S3x8192.Idx) :
    i ∈ ((cfg0.win 2).blk t).view.set ↔ ∀ a : Fin 2, win0_2.index t a * S3x256.size a ≤ (i a).val ∧ (i a).val < win0_2.index t a * S3x256.size a + S3x256.size a := by
  show i ∈ ((View.whole main_v0).slice (win0_2.rect t)).set ↔ _
  rw [View.set_slice_whole, Rect.mem_set_unit]
  exact Iff.rfl

/-- Column n of the result lies in the block of point n / 256. -/
theorem cover (i : S3x8192.Idx) : ∃ t : Fin cfg0.N, (cfg0.win 2).flush t = true ∧ i ∈ ((cfg0.win 2).blk t).view.set := by
  have h0 : (i 0).val < 3 := (i 0).isLt
  have h1 : (i 1).val < 8192 := (i 1).isLt
  have hN : cfg0.N = 32 := N_0
  let t : Fin cfg0.N := ⟨(i 1).val / 256, by rw [hN]; omega⟩
  obtain ⟨e0, e1, e2, e3, e4, e5⟩ := idx_facts t
  have ht : t.val = (i 1).val / 256 := rfl
  refine ⟨t, flush0_2 t, ?_⟩
  rw [mem_blk]
  intro a
  match a with
  | ⟨0, _⟩ => show win0_2.index t (0 : Fin 2) * 3 ≤ (i 0).val ∧ (i 0).val < win0_2.index t (0 : Fin 2) * 3 + 3; omega
  | ⟨1, _⟩ => show win0_2.index t (1 : Fin 2) * 256 ≤ (i 1).val ∧ (i 1).val < win0_2.index t (1 : Fin 2) * 256 + 256; omega

/-- The result array after the run. -/
theorem final (c : Dev nD) : (dats m 0 c).arrAt 2 cfg0.N = outArr m c :=
  (dats m 0 c).arrAt_eq_of_cover 2 (outArr m c) (fun t _ => flushed_eq m c t) cover

end Cert.SoftNearest

end
-- ==== Proof.lean ====
/-
  Kernel and reference compute, for two arrays of 8192 points of ℝ³ (f32[3, 8192] each), the soft nearest
  neighbour of every point of the first among the points of the second, and the mean distance between each point
  and its soft nearest neighbour.

  For a query point q and reference points p_m: the squared distance |q|² + |p_m|² − 2⟨q, p_m⟩ is floored at ε,
  the score is s_m = 2 / distance², the weights are the softmax of s over m, and the result is Σ_m w_m · p_m.
  The kernel does this for 256 query points per grid point with all reference points resident; the reference on
  whole [8192, 8192] matrices. At the ideal values the two differ in three places only:
    • the kernel groups the squared distance as (|q|² + |p|²) − 2⟨q,p⟩, the reference as (|q|² − 2⟨q,p⟩) + |p|²:
      equal because the squared norms of points with finite coordinates are real numbers (the one use of the
      precondition);
    • the floor is max(t, ε) on one side and max(ε, t) on the other;
    • the reference joins the row maximum, already taken from −∞, with −∞ once more.
  Sums, matrix products and the row maximum are the same finite sums and folds on both sides, whatever their
  tiling. The second result is the same chain of host operations applied, in both programs, to the first
  argument and the first result: it is carried as one function and never opened.
-/
import proofs.«164689_j1563368096435_1_alg».proof.Defs
import proofs.«164689_j1563368096435_1_alg».proof.Proof.Gen.Kernel
import proofs.«164689_j1563368096435_1_alg».proof.Proof.Gen.Kernel.Skeleton
import proofs.«164689_j1563368096435_1_alg».proof.Proof.Gen.Kernel.Launch
import proofs.«164689_j1563368096435_1_alg».proof.Proof.Gen.Kernel.Points
import proofs.«164689_j1563368096435_1_alg».proof.Proof.Gen.Kernel.Frame
import proofs.«164689_j1563368096435_1_alg».proof.Proof.Gen.KernelIdeal
import proofs.«164689_j1563368096435_1_alg».proof.Proof.Gen.KernelIdeal.Skeleton
import proofs.«164689_j1563368096435_1_alg».proof.Proof.Gen.KernelIdeal.Launch
import proofs.«164689_j1563368096435_1_alg».proof.Proof.Gen.KernelIdeal.Points
import proofs.«164689_j1563368096435_1_alg».proof.Proof.Gen.KernelIdeal.Frame
import proofs.«164689_j1563368096435_1_alg».proof.Proof.Gen.ReferenceIdeal
import proofs.«164689_j1563368096435_1_alg».proof.Proof.Gen.Pre_finite_inputs
import proofs.«164689_j1563368096435_1_alg».proof.Proof.Gen.ReferenceIdeal.Run
import proofs.«164689_j1563368096435_1_alg».proof.Proof.Gen.ReferenceIdeal.Read
import proofs.«164689_j1563368096435_1_alg».proof.Proof.Spec
import proofs.«164689_j1563368096435_1_alg».proof.Proof.FiniteInputs
import proofs.«164689_j1563368096435_1_alg».proof.Proof.RefNear
import proofs.«164689_j1563368096435_1_alg».proof.Proof.KernelTail
import proofs.«164689_j1563368096435_1_alg».proof.Proof.KernelValue
import Idealize.ShloMosaic.Adequacy
import Idealize.ShloMosaic.Init

set_option maxRecDepth 16384

noncomputable section

open Idealize.ShloMosaic Idealize.ShloMosaic.TcCoe Idealize.SL.Sem Idealize.ShloMosaic.ValueIdx

namespace Cert.SoftNearest

/-! ## The kernel's run, read -/

section KernelRun

open Cert.KernelIdeal Cert.KernelIdeal.Gen

variable (m : (ℓ : Loc nD τ sig) → Buf (Elt Ideal) ℓ) (ρ : Dev nD → PrngReg)

/-- Every run of the idealized kernel's program ends with the first result at the soft nearest neighbours, the second
    at the mean distance to them, and the arguments unchanged. -/
theorem kernel_run : θ_run Cert.KernelIdeal.defs (onTc (τ := τ) (Cert.KernelIdeal.main (F := Ideal))) ⟨m, fun _ => 0, ρ⟩ (fun r => ∀ c : Dev nD,
      r.2.mem ((c.tc : Thread nD τ).loc main_v0) = outArr m c
      ∧ r.2.mem ((c.tc : Thread nD τ).loc main_v8) = meanDist (m ((c.tc : Thread nD τ).loc main_arg0)) (outArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run Cert.KernelIdeal.defs _ _).mono (fun r h c =>
    ⟨((h c).1 2).trans (final m c),
      ((h c).2 main_v8 (by decide)).trans ((tail_eq m c).trans (congrArg (meanDist _) (final m c))),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end KernelRun

/-! ## The reference's results -/

section Reference

open Cert.ReferenceIdeal Cert.ReferenceIdeal.Read

/-- On inputs with real entries the reference's first result is the array of soft nearest neighbours. -/
theorem ref_eq (x0 x1 : (⟨Cert.ReferenceIdeal.S3x8192, .f32⟩ : BufTy).Contents (Elt Ideal))
    (h0 : ∀ i, ∃ r : ℝ, x0 i = (r : EReal)) (h1 : ∀ i, ∃ r : ℝ, x1 i = (r : EReal)) :
    val_main_v29 (F := Ideal) x0 x1 = nearAll (M := 8192) (N := 8192) x0 x1 := by
  funext i
  obtain ⟨d, n, rfl⟩ : ∃ (d : Fin 3) (n : Fin 8192), i = ix2 d n := ⟨i 0, i 1, eq_ix2 i⟩
  rw [ref_apply]
  show _ = near (fun d' => x0 (ix2 d' n)) (fun m d' => x1 (ix2 d' m)) d
  exact near'_eq _ _ d (fun d' => h0 _) (fun m d' => h1 _)

/-- The reference's second result is the shared chain of host operations applied to its first argument and first result. -/
theorem ref_tail (x0 x1 : (⟨Cert.ReferenceIdeal.S3x8192, .f32⟩ : BufTy).Contents (Elt Ideal)) :
    val_main_v37 (F := Ideal) x0 x1 = meanDist x0 (val_main_v29 (F := Ideal) x0 x1) := rfl

end Reference

end Cert.SoftNearest

namespace Cert.Proof

open Cert.SoftNearest

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- Both idealized programs end with the same two results: the kernel's by its run read above, the reference's by its
    generated run, its first result the same array on inputs with real entries, its second the same function of it. -/
theorem algebraic : Cert.algebraic_KernelIdeal_ReferenceIdeal := by
  intro m ρ m' ρ' hpre hagree
  refine ⟨fun c => outArr m c, fun c => meanDist (m ((c.tc : Thread Cert.KernelIdeal.nD Cert.KernelIdeal.τ).loc Cert.KernelIdeal.main_arg0)) (outArr m c),
    kernel_run m ρ, ?_⟩
  refine (θ_run Cert.ReferenceIdeal.defs _ _).mono (fun _ h c => ?_) (Cert.ReferenceIdeal.Value.run (F := Ideal) m' ρ')
  obtain ⟨hr0, hr1⟩ := real_of_pre _ _ (hpre c)
  have e29 : Cert.ReferenceIdeal.Value.res_main_v29 m' c = outArr m c := by
    rw [Cert.ReferenceIdeal.Read.val_main_v29_eq, (hagree c).1, (hagree c).2]
    exact ref_eq _ _ hr0 hr1
  refine ⟨(h c).1.trans e29, (h c).2.1.trans ?_, (h c).2.2.1, (h c).2.2.2⟩
  rw [Cert.ReferenceIdeal.Read.val_main_v37_eq, ref_tail, ← Cert.ReferenceIdeal.Read.val_main_v29_eq, e29, (hagree c).1]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
